-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.DenseSpec.lean ====
/-
  The function both programs compute, and the one regrouping of a sum that joins them.

  A dense layer followed by tanh: for a 4096 x 4096 input x, a 4096 x 4096 weight matrix w and a bias b of length 4096,
      out(i, j) = tanh( (sum over k < 4096 of x(i, k) * w(k, j)) + b(j) )
  over the extended reals.  One program forms the sum over k at once; the other cuts k into 8 blocks of 512, starts
  from zero and adds one block's partial sum after another.  The two agree because addition of extended reals is
  commutative and associative (a sum over 8 * 512 indices is the sum over the blocks of the sums inside each block);
  no entry has to be finite for that, and no product is ever distributed over a sum.

  To keep block arithmetic on plain natural numbers, a matrix is also read as a function of two naturals that is
  zero outside the matrix (`ext2`), and a vector likewise (`ext1`).
-/
import Idealize.ShloMosaic.PureOps.Ideal
import Idealize.ShloMosaic.Lib.ValueIdx

noncomputable section

open scoped BigOperators

namespace Cert.Dense

open Idealize.ShloMosaic Idealize.ShloMosaic.ValueIdx

/-- A matrix read at two natural numbers: its entry inside, zero outside. -/
def ext2 {R C : Nat} (a : (⟨2, ![R, C]⟩ : Shape).Idx → EReal) (r k : Nat) : EReal :=
  if h : r < R ∧ k < C then a (ix2 ⟨r, h.1⟩ ⟨k, h.2⟩) else 0

/-- A vector read at a natural number: its entry inside, zero outside. -/
def ext1 {C : Nat} (a : (⟨1, ![C]⟩ : Shape).Idx → EReal) (k : Nat) : EReal :=
  if h : k < C then a (ix1 ⟨k, h⟩) else 0

theorem ext2_of_lt {R C : Nat} (a : (⟨2, ![R, C]⟩ : Shape).Idx → EReal) (r : Fin R) (k : Fin C) :
    ext2 a r.val k.val = a (ix2 r k) := by
  unfold ext2; rw [dif_pos ⟨r.isLt, k.isLt⟩]

theorem ext1_of_lt {C : Nat} (a : (⟨1, ![C]⟩ : Shape).Idx → EReal) (k : Fin C) :
    ext1 a k.val = a (ix1 k) := by
  unfold ext1; rw [dif_pos k.isLt]

/-- Entry (r, j) of the dense layer before the bias: the row of x against the column of w. -/
def rowcol (x w : (⟨2, ![4096, 4096]⟩ : Shape).Idx → EReal) (r j : Nat) : EReal :=
  ∑ k ∈ Finset.range 4096, ext2 x r k * ext2 w k j

/-- The part of that sum inside block s of the contraction index: k = 512 s + 0 … 512 s + 511. -/
def rowcolBlock (x w : (⟨2, ![4096, 4096]⟩ : Shape).Idx → EReal) (r j s : Nat) : EReal :=
  ∑ k ∈ Finset.range 512, ext2 x r (512 * s + k) * ext2 w (512 * s + k) j

/-- The whole result. -/
def dense (x w : (⟨2, ![4096, 4096]⟩ : Shape).Idx → EReal) (b : (⟨1, ![4096]⟩ : Shape).Idx → EReal) :
    (⟨2, ![4096, 4096]⟩ : Shape).Idx → EReal := fun i =>
  Ideal.tanh (rowcol x w (i 0).val (i 1).val + ext1 b (i 1).val)

/-- A sum over n * c consecutive naturals is the sum over the n blocks of the sums of the c naturals in each. -/
theorem sum_range_blocks {M : Type*} [AddCommMonoid M] (g : Nat → M) (c : Nat) :
    ∀ n : Nat, ∑ k ∈ Finset.range (c * n), g k = ∑ s ∈ Finset.range n, ∑ k ∈ Finset.range c, g (c * s + k)
  | 0 => by simp
  | n + 1 => by
    rw [Finset.sum_range_succ, ← sum_range_blocks g c n, Nat.mul_succ, Finset.sum_range_add]

/-- The eight block sums make up the whole row-by-column sum. -/
theorem rowcol_eq_blocks (x w : (⟨2, ![4096, 4096]⟩ : Shape).Idx → EReal) (r j : Nat) :
    rowcol x w r j = ∑ s ∈ Finset.range 8, rowcolBlock x w r j s := by
  unfold rowcol rowcolBlock
  exact sum_range_blocks (fun k => ext2 x r k * ext2 w k j) 512 8

end Cert.Dense

end
-- ==== Proof.RefIsDense.lean ====
/-
  The reference computes the dense layer followed by tanh.

  Its five host operations are a matrix product of x and w (one contraction over all 4096 indices), the bias vector
  broadcast first to a one-row matrix and then over the 4096 rows, an addition, and tanh.  Read at entry (i, j) this is
  tanh((sum over k of x(i, k) * w(k, j)) + b(j)), which is `Cert.Dense.dense`.
-/
import proofs.«179816_j24378234372712_1_alg».proof.Proof.Gen.ReferenceIdeal.Read
import proofs.«179816_j24378234372712_1_alg».proof.Proof.DenseSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Dense

theorem lidx_eq (i : S4096x4096.Idx) (k : Fin 4096) : lidx_main_v0 i k = ix2 (i 0) k :=
  funext fun a => by match a with | ⟨0, _⟩ => rfl | ⟨1, _⟩ => rfl

theorem ridx_eq (i : S4096x4096.Idx) (k : Fin 4096) : ridx_main_v0 i k = ix2 k (i 1) :=
  funext fun a => by match a with | ⟨0, _⟩ => rfl | ⟨1, _⟩ => rfl

theorem bidx_eq (i : S4096x4096.Idx) : idx_main_v1 (idx_main_v2 i) = ix1 (i 1) :=
  funext fun a => by match a with | ⟨0, _⟩ => rfl

/-- The reference's last stage is the dense layer followed by tanh. -/
theorem ref_is_dense (x w : (⟨2, ![4096, 4096]⟩ : Shape).Idx → EReal) (b : (⟨1, ![4096]⟩ : Shape).Idx → EReal) :
    val_main_v4 (F := Ideal) x w b = dense x w b := by
  funext i
  obtain ⟨p, q, rfl⟩ : ∃ (p q : Fin 4096), i = ix2 p q := ⟨i 0, i 1, eq_ix2 i⟩
  rw [val_main_v4_apply, val_main_v3_apply, val_main_v0_apply, val_main_v2_apply, val_main_v1_apply]
  unfold dense rowcol
  simp only [lidx_eq, ridx_eq, bidx_eq]
  show Ideal.tanh ((∑ k : Fin 4096, x (ix2 p k) * w (ix2 k q)) + b (ix1 q))
    = Ideal.tanh ((∑ k ∈ Finset.range 4096, ext2 x p.val k * ext2 w k q.val) + ext1 b q.val)
  rw [Finset.sum_range (fun k => ext2 x p.val k * ext2 w k q.val)]
  simp only [ext2_of_lt, ext1_of_lt]

end Cert.ReferenceIdeal.RefValue

end
-- ==== Proof.Pieces.lean ====
/-
  What each of the kernel body's three control cases leaves behind, as the body's pure terms.

  At the first step of a run of eight (case A) the body stores the zero block into its accumulator, reads it back and
  stores the first partial product on top: the accumulator ends at step(zero).  At a middle step (case B) it ends at
  step(previous accumulator).  At the last step (case C) the accumulator ends likewise and the output block receives
  close(accumulator, bias).  Each identity holds for any number format: the stores are whole-block stores at offset
  zero, so reading the pieces back gives the stored value.
-/
import proofs.«179816_j24378234372712_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The first step of a run leaves the accumulator one step past the zero block. -/
theorem acc_A (c : Dev nD) (i : grid0.Coords) (a3 : Memref sig .tc .vmem S1024x512 .f32) (h3 : a3.IsWhole)
    (a4 : Memref sig .tc .vmem S512x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x512 .f32) (x1 : Vec F S512x1024 .f32) (x2 : Vec F S1x1024 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz,
    View.ld_unit_zero (S := S512x1024) hz, View.readCov_unit_zero (S := S1024x1024) _ hz]

/-- A middle step leaves the accumulator one step further. -/
theorem acc_B (c : Dev nD) (i : grid0.Coords) (a3 : Memref sig .tc .vmem S1024x512 .f32) (h3 : a3.IsWhole)
    (a4 : Memref sig .tc .vmem S512x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x512 .f32) (x1 : Vec F S512x1024 .f32) (x2 : Vec F S1x1024 .f32) (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero hz]
  simp only [View.readAt_eq_ld, h3.read_unread, h4.read_unread, h7.read_unread, View.ld_unit_zero (S := S1024x512) hz,
    View.ld_unit_zero (S := S512x1024) hz, View.ld_unit_zero (S := S1024x1024) hz]

/-- The last step leaves the accumulator one step further, too, -/
theorem acc_C (c : Dev nD) (i : grid0.Coords) (a3 : Memref sig .tc .vmem S1024x512 .f32) (h3 : a3.IsWhole)
    (a4 : Memref sig .tc .vmem S512x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x512 .f32) (x1 : Vec F S512x1024 .f32) (x2 : Vec F S1x1024 .f32) (xs : Vec F S1024x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S1024x512) hz,
    View.ld_unit_zero (S := S512x1024) hz, View.ld_unit_zero (S := S1024x1024) hz]

/-- and stores into the output block the closing term of that accumulator and the bias row. -/
theorem out_C (c : Dev nD) (i : grid0.Coords) (a3 : Memref sig .tc .vmem S1024x512 .f32) (h3 : a3.IsWhole)
    (a4 : Memref sig .tc .vmem S512x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x512 .f32) (x1 : Vec F S512x1024 .f32) (x2 : Vec F S1x1024 .f32) (xs : Vec F S1024x1024 .f32) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h5.read_unread, h7.read_unread, View.ld_unit_zero (S := S1024x512) hz,
    View.ld_unit_zero (S := S512x1024) hz, View.ld_unit_zero (S := S1024x1024) hz, View.ld_unit_zero (S := S1x1024) hz,
    View.readCov_unit_zero (S := S1024x1024) _ hz]

end Cert.KernelIdeal.Pieces

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.Payloads.lean ====
/-
  The three pure terms the kernel body stores, read at one entry over the extended reals.

  The body keeps a 1024 x 1024 accumulator block.  It stores the zero block (`k0_pay1`) at the first step of a run of
  eight, at every step adds to the accumulator the product of a 1024 x 512 block of x with a 512 x 1024 block of w
  (`k0_pay2`: the two blocks are narrowed to bf16 first, which over the extended reals changes nothing, and the
  matrix unit starts from a zero accumulator), and at the last step stores tanh(accumulator + bias row) (`k0_pay3`).
-/
import proofs.«179816_j24378234372712_1_alg».proof.Proof.Gen.KernelIdeal.Skeleton
import proofs.«179816_j24378234372712_1_alg».proof.Proof.LibRealFactor
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The reset block is zero at every entry. -/
theorem reset_apply (p q : Fin 1024) : k0_pay1 (F := Ideal) (ix2 p q) = 0 := by
  unfold k0_pay1
  rw [shapeCast_self]
  exact Ideal.ofBits_zero_f32

/-- One accumulation step at entry (p, q): the accumulator's entry plus row p of the x block against column q of
    the w block. -/
theorem step_apply (a : Vec Ideal S1024x512 .f32) (b : Vec Ideal S512x1024 .f32) (acc : Vec Ideal S1024x1024 .f32)
    (p q : Fin 1024) :
    k0_pay2 a b acc (ix2 p q) = acc (ix2 p q) + ∑ k : Fin 512, a (ix2 p k) * b (ix2 k q) := by
  unfold k0_pay2
  rw [shapeCast_self]
  refine congrArg (acc (ix2 p q) + ·) ?_
  exact Cert.Fold.matmul_zero_rows dot_S1024x512_S512x1024_S1024x1024_1_0_0_1_n_n rfl rfl rfl rfl rfl rfl none _ _ p q

/-- The closing step at entry (p, q): tanh of the accumulator's entry plus the bias row's entry q. -/
theorem close_apply (acc : Vec Ideal S1024x1024 .f32) (bias : Vec Ideal S1x1024 .f32) (p q : Fin 1024) :
    k0_pay3 acc bias (ix2 p q) = Ideal.tanh (acc (ix2 p q) + bias (ix2 (0 : Fin 1) q)) := by
  unfold k0_pay3
  rw [shapeCast_self]
  refine congrArg (fun z => Ideal.tanh (acc (ix2 p q) + z)) ?_
  exact broadcastTo_1b_ab_apply bias broadcasts_S1x1024_S1024x1024 p q

end Cert.KernelIdeal.Payload

end
-- ==== Proof.Blocks.lean ====
/-
  The blocks the kernel's windows read, as entries of the argument arrays.

  The grid has 4 x 4 x 8 = 128 points; point t has row-block t / 32, column-block (t / 8) % 4 and contraction block
  t % 8.  At point t the x window holds rows 1024 (t / 32) + 0 … 1023 and columns 512 (t % 8) + 0 … 511 of x, the w
  window rows 512 (t % 8) + … and columns 1024 ((t / 8) % 4) + … of w, and the bias window entries
  1024 ((t / 8) % 4) + … of the bias (which the program first reshapes from a vector to a one-row matrix).
-/
import proofs.«179816_j24378234372712_1_alg».proof.Proof.Gen.KernelIdeal.Frame
import proofs.«179816_j24378234372712_1_alg».proof.Proof.DenseSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Dense

variable (m : (ℓ : Loc nD τ sig) → Buf (Elt Ideal) ℓ)

/-- The three argument arrays as functions into the extended reals. -/
abbrev xArr (c : Dev nD) : (⟨2, ![4096, 4096]⟩ : Shape).Idx → EReal := m ((c : Thread nD τ).loc main_arg0)
abbrev wArr (c : Dev nD) : (⟨2, ![4096, 4096]⟩ : Shape).Idx → EReal := m ((c : Thread nD τ).loc main_arg1)
abbrev bArr (c : Dev nD) : (⟨1, ![4096]⟩ : Shape).Idx → EReal := m ((c : Thread nD τ).loc main_arg2)

/-- The three input windows' blocks at point t, each at its literal shape. -/
abbrev xblk (c : Dev nD) (t : Fin cfg0.N) : Vec Ideal S1024x512 .f32 := iblk m c 0 t
abbrev wblk (c : Dev nD) (t : Fin cfg0.N) : Vec Ideal S512x1024 .f32 := iblk m c 1 t
abbrev bblk (c : Dev nD) (t : Fin cfg0.N) : Vec Ideal S1x1024 .f32 := iblk m c 2 t

/-- Which block each window is on at point t. -/
theorem idx_x : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx_w : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)
theorem idx_b : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)
theorem idx_o : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-- Entry (p, k) of the x window's block at point t. -/
theorem xblk_apply (c : Dev nD) (t : Fin cfg0.N) (p : Fin 1024) (k : Fin 512) :
    xblk m c t (ix2 p k)
      = ext2 (xArr m c) (1024 * (t.val / 32) + p.val) (512 * (t.val % 8) + k.val) := by
  have hi := idx_x t
  have ht : t.val < 128 := lt_of_lt_of_eq t.isLt N_0
  have hr : 1024 * (t.val / 32) + p.val < 4096 := by omega
  have hk : 512 * (t.val % 8) + k.val < 4096 := by omega
  unfold Cert.Dense.ext2
  rw [dif_pos ⟨hr, hk⟩]
  unfold xblk iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 1024 + 1 * p.val = 1024 * (t.val / 32) + p.val; rw [hi.1]; omega
  | ⟨1, _⟩ => show win0_0.index t 1 * 512 + 1 * k.val = 512 * (t.val % 8) + k.val; rw [hi.2]; omega

/-- Entry (k, q) of the w window's block at point t. -/
theorem wblk_apply (c : Dev nD) (t : Fin cfg0.N) (k : Fin 512) (q : Fin 1024) :
    wblk m c t (ix2 k q)
      = ext2 (wArr m c) (512 * (t.val % 8) + k.val) (1024 * (t.val / 8 % 4) + q.val) := by
  have hi := idx_w t
  have ht : t.val < 128 := lt_of_lt_of_eq t.isLt N_0
  have hk : 512 * (t.val % 8) + k.val < 4096 := by omega
  have hq : 1024 * (t.val / 8 % 4) + q.val < 4096 := by omega
  unfold Cert.Dense.ext2
  rw [dif_pos ⟨hk, hq⟩]
  unfold wblk iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 512 + 1 * k.val = 512 * (t.val % 8) + k.val; rw [hi.1]; omega
  | ⟨1, _⟩ => show win0_1.index t 1 * 1024 + 1 * q.val = 1024 * (t.val / 8 % 4) + q.val; rw [hi.2]; omega

/-- The one-row matrix the bias window reads is the bias vector reshaped. -/
theorem bias_row (c : Dev nD) :
    (V m c main_v0 : S1x4096.Idx → EReal) = shapeCast S1x4096 (bArr m c) shapeCasts_S4096_S1x4096 := by
  dsimp only [Gen.V, Gen.hostOps0]
  after_results
  rfl

/-- Entry (0, q) of the bias window's block at point t. -/
theorem bblk_apply (c : Dev nD) (t : Fin cfg0.N) (q : Fin 1024) :
    bblk m c t (ix2 (0 : Fin 1) q)
      = ext1 (bArr m c) (1024 * (t.val / 8 % 4) + q.val) := by
  have hi := idx_b t
  have ht : t.val < 128 := lt_of_lt_of_eq t.isLt N_0
  have hq : 1024 * (t.val / 8 % 4) + q.val < 4096 := by omega
  unfold Cert.Dense.ext1
  rw [dif_pos hq]
  unfold bblk iblk
  rw [View.read_apply]
  show V m c main_v0 _ = _
  rw [bias_row]
  refine (congrArg (shapeCast S1x4096 (bArr m c) shapeCasts_S4096_S1x4096) (?_ : _ = ix2 (0 : Fin 1) (⟨1024 * (t.val / 8 % 4) + q.val, hq⟩ : Fin 4096))).trans
    (shapeCast_a_1a_apply (bArr m c) shapeCasts_S4096_S1x4096 0 _)
  funext a
  apply Fin.ext
  match a with
  | ⟨0, _⟩ => show win0_2.index t 0 * 1 + 1 * 0 = 0; rw [hi.1]
  | ⟨1, _⟩ => show win0_2.index t 1 * 1024 + 1 * q.val = 1024 * (t.val / 8 % 4) + q.val; rw [hi.2]; omega

end Cert.KernelIdeal.Blocks

end
-- ==== Proof.Accumulate.lean ====
/-
  The accumulator block after every grid point, as a partial sum of the dense layer's row-by-column sums.

  Point t = 32 i + 8 j + s works on rows 1024 i + …, columns 1024 j + … and contraction block s.  The accumulator is
  reset at s = 0 and afterwards only added to, so after point t its entry (p, q) is the sum, over the contraction blocks
  0 … s, of the parts of sum_k x(1024 i + p, k) * w(k, 1024 j + q) that lie in those blocks.  After the last block
  (s = 7) that is the whole row-by-column sum.
-/
import proofs.«179816_j24378234372712_1_alg».proof.Proof.Gen.KernelIdeal.Value
import proofs.«179816_j24378234372712_1_alg».proof.Proof.Pieces
import proofs.«179816_j24378234372712_1_alg».proof.Proof.Payloads
import proofs.«179816_j24378234372712_1_alg».proof.Proof.Blocks
import proofs.«179816_j24378234372712_1_alg».proof.Proof.DenseSpec
import Idealize.ShloMosaic.Lib.Pipeline.Value
import Idealize.ShloMosaic.Lib.ValueIdx

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.Dense Cert.KernelIdeal.Blocks

variable (m : (ℓ : Loc nD τ sig) → Buf (Elt Ideal) ℓ)

/-- What point n adds to entry y of the accumulator block: the part of the row-by-column sum inside contraction
    block n % 8, for the row and the column that entry y stands for at point n. -/
def addend (c : Dev nD) (n : ℕ) (y : S1024x1024.Idx) : EReal :=
  rowcolBlock (xArr m c) (wArr m c) (1024 * (n / 32) + (y 0).val) (1024 * (n / 8 % 4) + (y 1).val) (n % 8)

/-- The product of the two blocks at point t, at entry (p, q), is that addend. -/
theorem blockprod (c : Dev nD) (t : Fin cfg0.N) (p q : Fin 1024) :
    ∑ k : Fin 512, xblk m c t (ix2 p k) * wblk m c t (ix2 k q)
      = addend m c t.val (ix2 p q) := by
  show _ = ∑ k ∈ Finset.range 512, ext2 (xArr m c) (1024 * (t.val / 32) + p.val) (512 * (t.val % 8) + k)
      * ext2 (wArr m c) (512 * (t.val % 8) + k) (1024 * (t.val / 8 % 4) + q.val)
  rw [Finset.sum_range (fun k => ext2 (xArr m c) (1024 * (t.val / 32) + p.val) (512 * (t.val % 8) + k)
      * ext2 (wArr m c) (512 * (t.val % 8) + k) (1024 * (t.val / 8 % 4) + q.val))]
  exact Finset.sum_congr rfl fun k _ => by rw [xblk_apply, wblk_apply]

/-- At the first point of a run the accumulator is left at zero plus that point's addend, whatever it held. -/
theorem step_first (c : Dev nD) (n : ℕ) (hb : n < cfg0.N) (h0 : n % 8 = 0) (acc : Vec Ideal S1024x1024 .f32)
    (y : S1024x1024.Idx) : Value.scAt0_0 m c n hb acc y = 0 + addend m c n y := by
  have h1 : ¬ n % 8 = 7 := by omega
  obtain ⟨p, q, rfl⟩ : ∃ (p q : Fin 1024), y = ix2 p q := ⟨y 0, y 1, eq_ix2 y⟩
  unfold Value.scAt0_0
  rw [dif_pos h0, dif_neg h1]
  refine (congrFun (Pieces.acc_A (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩)) (ix2 p q)).trans ?_
  refine (Payload.step_apply (xblk m c ⟨n, hb⟩) (wblk m c ⟨n, hb⟩) (k0_pay1 (F := Ideal)) p q).trans ?_
  rw [Payload.reset_apply, blockprod m c ⟨n, hb⟩ p q]

/-- At every other point it is left at what it held plus that point's addend. -/
theorem step_next (c : Dev nD) (n : ℕ) (hb : n < cfg0.N) (h0 : ¬ n % 8 = 0) (acc : Vec Ideal S1024x1024 .f32)
    (y : S1024x1024.Idx) : Value.scAt0_0 m c n hb acc y = acc y + addend m c n y := by
  obtain ⟨p, q, rfl⟩ : ∃ (p q : Fin 1024), y = ix2 p q := ⟨y 0, y 1, eq_ix2 y⟩
  unfold Value.scAt0_0
  rw [dif_neg h0]
  by_cases h1 : n % 8 = 7
  · rw [dif_pos h1]
    refine (congrFun (Pieces.acc_C (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc) (ix2 p q)).trans ?_
    refine (Payload.step_apply (xblk m c ⟨n, hb⟩) (wblk m c ⟨n, hb⟩) acc p q).trans ?_
    rw [blockprod m c ⟨n, hb⟩ p q]
  · rw [dif_neg h1]
    refine (congrFun (Pieces.acc_B (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc) (ix2 p q)).trans ?_
    refine (Payload.step_apply (xblk m c ⟨n, hb⟩) (wblk m c ⟨n, hb⟩) acc p q).trans ?_
    rw [blockprod m c ⟨n, hb⟩ p q]

/-- The accumulator after point t, at entry (p, q): the contraction blocks 0 … t % 8 of the row-by-column sum. -/
theorem acc_after (c : Dev nD) (t : Fin cfg0.N) (p q : Fin 1024) :
    (outsAt0 m c t.val t.isLt).2 (ix2 p q)
      = ∑ s ∈ Finset.range (t.val % 8 + 1),
          rowcolBlock (xArr m c) (wArr m c) (1024 * (t.val / 32) + p.val) (1024 * (t.val / 8 % 4) + q.val) s := by
  have ht : t.val < 128 := lt_of_lt_of_eq t.isLt N_0
  have hN : cfg0.N = 128 := N_0
  rw [Value.soutsAt0_0_eq m c t]
  have key := Pipeline.accAt_add_apply (N := cfg0.N) (ι := S1024x1024.Idx) (β := EReal)
    (fun n h => Value.scAt0_0 m c n h (VS0_0.read (Elt Ideal) VS0_0.junk)) (Value.scAt0_0 m c)
    (fun _ => (0 : EReal)) (addend m c) (8 * (t.val / 8)) 7
    (fun h i => step_first m c _ h (by omega) _ i)
    (fun n h acc i hlt hle => step_next m c n h (by omega) acc i)
    (t.val % 8) (by omega) (by omega) (ix2 p q)
  rw [key, zero_add]
  refine Finset.sum_congr rfl fun s hs => ?_
  have hs' : s < 8 := by have := Finset.mem_range.mp hs; omega
  show rowcolBlock _ _ (1024 * ((8 * (t.val / 8) + s) / 32) + p.val) (1024 * ((8 * (t.val / 8) + s) / 8 % 4) + q.val)
      ((8 * (t.val / 8) + s) % 8) = _
  rw [show (8 * (t.val / 8) + s) / 32 = t.val / 32 by omega, show (8 * (t.val / 8) + s) / 8 % 4 = t.val / 8 % 4 by omega,
    show (8 * (t.val / 8) + s) % 8 = s by omega]

/-- After the last point of a run the accumulator holds the whole row-by-column sums. -/
theorem acc_last (c : Dev nD) (t : Fin cfg0.N) (h7 : t.val % 8 = 7) (p q : Fin 1024) :
    (outsAt0 m c t.val t.isLt).2 (ix2 p q)
      = rowcol (xArr m c) (wArr m c) (1024 * (t.val / 32) + p.val) (1024 * (t.val / 8 % 4) + q.val) := by
  rw [acc_after, h7, rowcol_eq_blocks]

end Cert.KernelIdeal.Accum

end
-- ==== Proof.Final.lean ====
/-
  The kernel's result array after its run is the dense layer followed by tanh.

  The output block is written back only at the last point of each run of eight; the block written back at point
  t = 32 i + 8 j + 7 is tanh(accumulator + bias row), and by then the accumulator holds the whole row-by-column sums,
  so it is block (i, j) of `Cert.Dense.dense` of the three arguments.  The sixteen blocks (i, j) tile the 4096 x 4096
  array, so the array ends holding that function everywhere.
-/
import proofs.«179816_j24378234372712_1_alg».proof.Proof.Gen.KernelIdeal.Value
import proofs.«179816_j24378234372712_1_alg».proof.Proof.Accumulate
import Idealize.ShloMosaic.Lib.Pipeline.Value
import Idealize.ShloMosaic.Lib.ValueIdx

noncomputable section

open scoped BigOperators

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.KernelIdeal.Blocks

variable (m : (ℓ : Loc nD τ sig) → Buf (Elt Ideal) ℓ) (ρ : Dev nD → PrngReg)

/-- The dense layer followed by tanh, of the three argument arrays. -/
abbrev result (c : Dev nD) : (⟨2, ![4096, 4096]⟩ : Shape).Idx → EReal := dense (xArr m c) (wArr m c) (bArr m c)

/-- The output block stored at the last point of a run, at entry (p, q). -/
theorem out_last (c : Dev nD) (t : Fin cfg0.N) (h7 : t.val % 8 = 7) (p q : Fin 1024) :
    (outsAt0 m c t.val t.isLt).1 (ix2 p q)
      = Ideal.tanh (rowcol (xArr m c) (wArr m c) (1024 * (t.val / 32) + p.val) (1024 * (t.val / 8 % 4) + q.val)
          + ext1 (bArr m c) (1024 * (t.val / 8 % 4) + q.val)) := by
  have h0 : ¬ t.val % 8 = 0 := by omega
  have hs : (outsAt0 m c t.val t.isLt).2
      = k0_pay2 (xblk m c t) (wblk m c t) (outsAt0 m c (t.val - 1) (Nat.lt_of_le_of_lt (Nat.sub_le _ _) t.isLt)).2 := by
    rw [outsAt0_C m c t h0 h7]
    dsimp only
    exact Pieces.acc_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _
  have ho : (outsAt0 m c t.val t.isLt).1
      = k0_pay3 (k0_pay2 (xblk m c t) (wblk m c t) (outsAt0 m c (t.val - 1) (Nat.lt_of_le_of_lt (Nat.sub_le _ _) t.isLt)).2)
          (bblk m c t) := by
    rw [outsAt0_C m c t h0 h7]
    dsimp only
    exact Pieces.out_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _
  rw [ho, ← hs]
  refine (Payload.close_apply ((outsAt0 m c t.val t.isLt).2) (bblk m c t) p q).trans ?_
  rw [Accum.acc_last m c t h7 p q, bblk_apply]

/-- What a writing point writes back is its block of the result. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have ht : t.val < 128 := lt_of_lt_of_eq t.isLt N_0
  have hi := idx_o t
  rw [Value.flushed3]
  funext y
  have hy0 : (y 0).val < 1024 := (y 0).isLt
  have hy1 : (y 1).val < 1024 := (y 1).isLt
  have e : (cfg0.win 3).xinj (grid0.coords t) y = ix2 (⟨(y 0).val, hy0⟩ : Fin 1024) (⟨(y 1).val, hy1⟩ : Fin 1024) :=
    funext fun a => by match a with | ⟨0, _⟩ => rfl | ⟨1, _⟩ => rfl
  show (outsAt0 m c t.val t.isLt).1 ((cfg0.win 3).xinj (grid0.coords t) y) = _
  rw [e, out_last m c t h7, View.read_apply]
  have e0 : ((((cfg0.win 3).blk t).view.emb y) 0).val = 1024 * (t.val / 32) + (y 0).val := by
    show win0_3.index t 0 * 1024 + 1 * (y 0).val = _
    rw [hi.1]; omega
  have e1 : ((((cfg0.win 3).blk t).view.emb y) 1).val = 1024 * (t.val / 8 % 4) + (y 1).val := by
    show win0_3.index t 1 * 1024 + 1 * (y 1).val = _
    rw [hi.2]; omega
  show _ = Ideal.tanh (rowcol (xArr m c) (wArr m c) ((((cfg0.win 3).blk t).view.emb y) 0).val ((((cfg0.win 3).blk t).view.emb y) 1).val
      + ext1 (bArr m c) ((((cfg0.win 3).blk t).view.emb y) 1).val)
  rw [e0, e1]

/-- Every entry of the result array lies in the block of some writing point. -/
theorem cover (c : Dev nD) (i : (⟨2, ![4096, 4096]⟩ : Shape).Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 128 := N_0
  let t : Fin cfg0.N := ⟨32 * ((i 0).val / 1024) + 8 * ((i 1).val / 1024) + 7, by rw [hN]; omega⟩
  have htv : t.val = 32 * ((i 0).val / 1024) + 8 * ((i 1).val / 1024) + 7 := rfl
  have hx := idx_o t
  refine ⟨t, (flush0_3 t).mpr (by rw [htv]; omega), ?_⟩
  show i ∈ ((View.whole main_v1).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [hx.1, htv]; omega
  | ⟨1, _⟩ =>
    show win0_3.index t 1 * 1024 ≤ (i 1).val ∧ (i 1).val < win0_3.index t 1 * 1024 + 1024
    rw [hx.2, htv]; omega

/-- So the result array ends holding the dense layer followed by tanh. -/
theorem final (c : Dev nD) : (dats m 0 c).arrAt 3 cfg0.N = result m c :=
  (dats m 0 c).arrAt_eq_of_cover 3 (result m c) (flushed_eq m c) (cover c)

/-- The kernel's run: the result array at that function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.lean ====
/-
  A dense layer followed by tanh, computed two ways, is one function over the extended reals.

  The kernel tiles the 4096 x 4096 output into sixteen 1024 x 1024 blocks and the contraction index into eight blocks
  of 512.  For each output block it zeroes an accumulator, adds the eight partial products of a block of x with a
  block of w one after another, and at the eighth stores tanh(accumulator + bias).  The reference forms
  tanh(x w + b) with one contraction over all 4096 indices.  Both are
      out(i, j) = tanh( (sum over k of x(i, k) * w(k, j)) + b(j) ):
  the kernel's eight partial sums, added up from zero, are the whole sum regrouped, and addition of extended reals
  is commutative and associative, so no entry needs to be finite.  The narrowing of the kernel's operands to bf16
  changes nothing over the extended reals.

  Proof/DenseSpec.lean states the function and the regrouping; Proof/RefIsDense.lean reads the reference;
  Proof/Pieces.lean, Proof/Payloads.lean and Proof/Blocks.lean read the kernel body and its windows;
  Proof/Accumulate.lean follows the accumulator through a run of eight points; Proof/Final.lean reads the result
  array.  The three programs' termination and unchanged arguments come from their runs.
-/
import proofs.«179816_j24378234372712_1_alg».proof.Defs
import proofs.«179816_j24378234372712_1_alg».proof.Proof.Gen.Kernel
import proofs.«179816_j24378234372712_1_alg».proof.Proof.Gen.Kernel.Skeleton
import proofs.«179816_j24378234372712_1_alg».proof.Proof.Gen.Kernel.Launch
import proofs.«179816_j24378234372712_1_alg».proof.Proof.Gen.Kernel.Points
import proofs.«179816_j24378234372712_1_alg».proof.Proof.Gen.Kernel.Frame
import proofs.«179816_j24378234372712_1_alg».proof.Proof.Gen.KernelIdeal
import proofs.«179816_j24378234372712_1_alg».proof.Proof.Gen.KernelIdeal.Skeleton
import proofs.«179816_j24378234372712_1_alg».proof.Proof.Gen.KernelIdeal.Launch
import proofs.«179816_j24378234372712_1_alg».proof.Proof.Gen.KernelIdeal.Points
import proofs.«179816_j24378234372712_1_alg».proof.Proof.Gen.KernelIdeal.Frame
import proofs.«179816_j24378234372712_1_alg».proof.Proof.Gen.ReferenceIdeal
import proofs.«179816_j24378234372712_1_alg».proof.Proof.Gen.Pre_finite_inputs
import proofs.«179816_j24378234372712_1_alg».proof.Proof.Gen.KernelIdeal.Value
import proofs.«179816_j24378234372712_1_alg».proof.Proof.Gen.ReferenceIdeal.Run
import proofs.«179816_j24378234372712_1_alg».proof.Proof.Gen.ReferenceIdeal.Read
import proofs.«179816_j24378234372712_1_alg».proof.Proof.RefIsDense
import proofs.«179816_j24378234372712_1_alg».proof.Proof.Final
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the dense layer followed
    by tanh of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_dense, (hagree c).1,
    (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
